-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x200x32 : Shape := ⟨3, ![4096, 200, 32]⟩
abbrev S_ : Shape := ⟨0, ![]⟩

class Facts : Prop where
  bcast_S_S4096x200x32 : S_.BroadcastsInDim S4096x200x32 (![] : Fin 0 → Fin S4096x200x32.rank)
  reducesTo_S4096x200x32_S_d0_1_2 : S4096x200x32.ReducesTo [0, 1, 2] S_
  h_S_ : 0 < S_.numel

variable [Facts]

def fn {F : FTy → Type} [FloatOps F] (main_arg0 : FVec F S4096x200x32 .f32) (main_arg1 : FVec F S4096x200x32 .f32) : IVec S_ 1 :=
  let main_v0 : FVec F S4096x200x32 .f32 := Host.absf main_arg0
  let main_cst : FVec F S_ .f32 := constant S_ .f32 0x7F800000#32
  let main_v1 : FVec F S4096x200x32 .f32 := broadcastInDim S4096x200x32 ![] bcast_S_S4096x200x32 main_cst
  let main_v2 : IVec S4096x200x32 1 := cmpf .olt main_v0 main_v1
  let main_c : IVec S_ 1 := constantI S_ 1 1#1
  let main_v3 : IVec S_ 1 := (fun x v => Host.reduce IntOp.andi x v reducesTo_S4096x200x32_S_d0_1_2 h_S_) main_v2 main_c
  let main_v4 : FVec F S4096x200x32 .f32 := Host.absf main_arg1
  let main_cst_0 : FVec F S_ .f32 := constant S_ .f32 0x7F800000#32
  let main_v5 : FVec F S4096x200x32 .f32 := broadcastInDim S4096x200x32 ![] bcast_S_S4096x200x32 main_cst_0
  let main_v6 : IVec S4096x200x32 1 := cmpf .olt main_v4 main_v5
  let main_c_1 : IVec S_ 1 := constantI S_ 1 1#1
  let main_v7 : IVec S_ 1 := (fun x v => Host.reduce IntOp.andi x v reducesTo_S4096x200x32_S_d0_1_2 h_S_) main_v6 main_c_1
  let main_v8 : IVec S_ 1 := andi main_v3 main_v7
  main_v8
-- ==== Kernel.lean ====
abbrev S4096x200x32 : Shape := ⟨3, ![4096, 200, 32]⟩
abbrev S4096x6400 : Shape := ⟨2, ![4096, 6400]⟩
abbrev S4096 : Shape := ⟨1, ![4096]⟩
abbrev S256x6400 : Shape := ⟨2, ![256, 6400]⟩
abbrev S256 : Shape := ⟨1, ![256]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S4096x200x32, .f32⟩
  | .hbm, ⟨1, _⟩ => ⟨S4096x200x32, .f32⟩
  | .hbm, ⟨2, _⟩ => ⟨S4096x6400, .f32⟩
  | .hbm, ⟨3, _⟩ => ⟨S4096x6400, .f32⟩
  | .hbm, ⟨4, _⟩ => ⟨S4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S256x6400, .f32⟩
  | .local _ .vmem, ⟨1, _⟩ => ⟨S256x6400, .f32⟩
  | .local _ .vmem, ⟨2, _⟩ => ⟨S256x6400, .f32⟩
  | .local _ .vmem, ⟨3, _⟩ => ⟨S256x6400, .f32⟩
  | .local _ .vmem, ⟨4, _⟩ => ⟨S256, .f32⟩
  | .local _ .vmem, ⟨5, _⟩ => ⟨S256, .f32⟩
  | _, _ => ⟨S4096x200x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x6400 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4096x200x32_S4096x6400 : S4096x200x32.ShapeCasts S4096x6400
  inb_S256x6400_S256x6400_0_0 : ∀ a, (![0, 0] : Fin 2 → Nat) a + S256x6400.size a ≤ S256x6400.size a
  h_S256x6400 : 0 < S256x6400.numel
  shapeCasts_S256x6400_S256x6400 : S256x6400.ShapeCasts S256x6400
  natLt_1_32 : 1 < 32
  reduces_S256x6400_S256 : S256x6400.Reduces [1] S256
  inb_S256_S256_0 : ∀ a, (![0] : Fin 1 → Nat) a + S256.size a ≤ S256.size a
  h_S256 : 0 < S256.numel
  reducesTo_S4096_S_d0 : S4096.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x6400.size a ≤ S4096x6400.size a
  hwx0_0 : ∀ i : grid0.Coords, EltTy.bits .f32 = 32 ∨ (Rect.block (s := S4096x6400) S256x6400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x6400.size a ≤ S4096x6400.size a
  hwx0_1 : ∀ i : grid0.Coords, EltTy.bits .f32 = 32 ∨ (Rect.block (s := S4096x6400) S256x6400.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S4096.size a
  hwx0_2 : ∀ i : grid0.Coords, EltTy.bits .f32 = 32 ∨ (Rect.block (s := S4096) S256.size (cc0_transform_2 i) (hinb0_2 i)).WholeWords (EltTy.packing .f32)

variable [Facts₀]

abbrev win0_0 : Pipeline.Window sig grid0 :=
  Pipeline.Window.ofSpec (Memref.whole main_v0) S256x6400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x6400.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x200x32 : Shape := ⟨3, ![4096, 200, 32]⟩
abbrev S_ : Shape := ⟨0, ![]⟩
abbrev S4096 : Shape := ⟨1, ![4096]⟩

abbrev nBuf : Space → Nat
  | .hbm => 15
  | .vmem => 0
  | .smem => 0
  | _ => 0

abbrev bufTy : (tb : Table) → Fin (tcTables nBuf tb) → BufTy
  | .hbm, ⟨0, _⟩ => ⟨S4096x200x32, .f32⟩
  | .hbm, ⟨1, _⟩ => ⟨S4096x200x32, .f32⟩
  | .hbm, ⟨2, _⟩ => ⟨S_, .f32⟩
  | .hbm, ⟨3, _⟩ => ⟨S4096x200x32, .f32⟩
  | .hbm, ⟨4, _⟩ => ⟨S4096x200x32, .i1⟩
  | .hbm, ⟨5, _⟩ => ⟨S4096x200x32, .f32⟩
  | .hbm, ⟨6, _⟩ => ⟨S4096x200x32, .f32⟩
  | .hbm, ⟨7, _⟩ => ⟨S4096x200x32, .f32⟩
  | .hbm, ⟨8, _⟩ => ⟨S4096x200x32, .f32⟩
  | .hbm, ⟨9, _⟩ => ⟨S_, .f32⟩
  | .hbm, ⟨10, _⟩ => ⟨S4096, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | _, _ => ⟨S4096x200x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S_S4096x200x32 : S_.BroadcastsInDim S4096x200x32 (![] : Fin 0 → Fin S4096x200x32.rank)
  reducesTo_S4096x200x32_S4096_d1_2 : S4096x200x32.ReducesTo [1, 2] S4096
  h_S_ : 0 < S_.numel
  reducesTo_S4096_S_d0 : S4096.ReducesTo [0] S_

variable [Facts₀]

class Facts : Prop extends Facts₀ where

variable [Facts]
-- ==== Proof.Spec.lean ====
/-
  What both programs compute, as one function of the two argument arrays.

  For arrays P (prediction) and T (target) of shape [4096, 200, 32] over the extended reals:
    share p t  = (p - t)² · [t ≠ 0]            one element's contribution
    rowLoss b  = Σ_{k < 6400} share at (b, k / 32, k % 32)   a sample's loss: its 200·32 entries in row-major order
    loss       = (0 + Σ_b rowLoss b) / 4096    the mean over the 4096 samples
  The kernel sums a sample's entries along the flattened axis of length 6400; the reference sums over the
  pairs (h, d) of the two trailing axes. The two index sets are in bijection by k ↦ (k / 32, k % 32), and a finite sum
  in a commutative monoid does not depend on the enumeration (`sum_fiber_eq_sum_flat`). No cancellation or
  distributivity is used, so the infinities need no care.
-/
import Idealize.ShloMosaic.Lib.ValueIdx
import Idealize.ShloMosaic.PureOps.Ideal.Laws

noncomputable section

open scoped BigOperators
open Idealize.ShloMosaic Idealize.ShloMosaic.ValueIdx

namespace Cert.MaskedSqErr

abbrev A3 : Shape := ⟨3, ![4096, 200, 32]⟩
abbrev A2 : Shape := ⟨2, ![4096, 6400]⟩
abbrev A1 : Shape := ⟨1, ![4096]⟩
abbrev A0 : Shape := ⟨0, ![]⟩

/-- One element's share of a sample's loss: the squared difference, counted where the target is not zero. -/
def share (p t : EReal) : EReal :=
  (p - t) * (p - t) * (((Ideal.cmp .une t (Ideal.ofBits .f32 0x00000000#32)).toNat : ℝ) : EReal)

/-- Position `k` of a flattened row of 6400 = 200 · 32 entries has the coordinates (k / 32, k % 32). -/
abbrev hi (k : Fin 6400) : Fin 200 := ⟨k.val / 32, by have := k.isLt; omega⟩
abbrev lo (k : Fin 6400) : Fin 32 := ⟨k.val % 32, by omega⟩

/-- The entry of sample `b` at flattened position `k`. -/
abbrev at3 (b : Fin 4096) (k : Fin 6400) : A3.Idx := ix3 b (hi k) (lo k)

/-- A sample's loss: the shares of its 6400 entries, added up. -/
def rowLoss (P T : FVec Ideal A3 .f32) : FVec Ideal A1 .f32 :=
  fun i => ∑ k : Fin 6400, share (P (at3 (i 0) k)) (T (at3 (i 0) k))

/-- The mean of the 4096 per-sample values, as both programs' last lines spell it: the sum from 0, divided by 4096. -/
def meanOver (h : A1.ReducesTo [0] A0) (h0 : 0 < A0.numel) (X : FVec Ideal A1 .f32) : FVec Ideal A0 .f32 :=
  Host.divf (F := Ideal) (Host.reduceAdd (F := Ideal) X (constant (F := Ideal) A0 .f32 0x00000000#32) h h0)
    (constant (F := Ideal) A0 .f32 0x45800000#32)

/-- The two widenings of the one-bit mask agree: zero-extended to 32 bits and read signed, it is the bit read unsigned. -/
theorem mask_word (b : BitVec 1) : (((b.setWidth 32).toInt : ℝ) : EReal) = ((b.toNat : ℝ) : EReal) := by
  have h : (b.setWidth 32).toInt = (b.toNat : Int) := by
    have hb : b = 0#1 ∨ b = 1#1 := by
      rcases Nat.lt_or_ge b.toNat 1 with h | h
      · left; apply BitVec.eq_of_toNat_eq; simp; omega
      · right; apply BitVec.eq_of_toNat_eq; have := b.isLt; simp; omega
    rcases hb with rfl | rfl <;> decide
  rw [h]; simp

/-- The sum over the entries of sample `j 0` — the indices the reduction over the two trailing axes sends to `j` —
    is the sum over the flattened positions. -/
theorem sum_fiber_eq_sum_flat {M : Type} [AddCommMonoid M] (h : A3.ReducesTo [1, 2] A1) (f : A3.Idx → M) (j : A1.Idx) :
    ∑ i ∈ Finset.univ.filter (fun i => h.drop i = j), f i = ∑ k : Fin 6400, f (at3 (j 0) k) := by
  have hd : ∀ i : A3.Idx, h.drop i = j ↔ i 0 = j 0 := by
    intro i
    constructor
    · intro e
      apply Fin.ext
      have := congrArg (fun q : A1.Idx => (q 0).val) e
      simpa [Shape.ReducesTo.drop_apply_val_of_eq h i 0 0] using this
    · intro e
      funext a
      have ha : a = 0 := Fin.ext (by have : a.val < 1 := a.isLt; show a.val = 0; omega)
      subst ha
      apply Fin.ext
      rw [Shape.ReducesTo.drop_apply_val_of_eq h i 0 0, e]
  refine Finset.sum_nbij' (fun i => (⟨(i 1).val * 32 + (i 2).val, by
      have h1 : (i 1).val < 200 := (i 1).isLt
      have h2 : (i 2).val < 32 := (i 2).isLt
      omega⟩ : Fin 6400)) (fun k => at3 (j 0) k) ?_ ?_ ?_ ?_ ?_
  · intro i _; exact Finset.mem_univ _
  · intro k _
    rw [Finset.mem_filter]
    exact ⟨Finset.mem_univ _, (hd _).mpr rfl⟩
  · intro i hi
    rw [Finset.mem_filter] at hi
    have e0 : i 0 = j 0 := (hd i).mp hi.2
    have h2 : (i 2).val < 32 := (i 2).isLt
    funext a
    match a with
    | ⟨0, _⟩ => exact e0.symm
    | ⟨1, _⟩ => apply Fin.ext; show ((i 1).val * 32 + (i 2).val) / 32 = (i 1).val; omega
    | ⟨2, _⟩ => apply Fin.ext; show ((i 1).val * 32 + (i 2).val) % 32 = (i 2).val; omega
  · intro k _
    apply Fin.ext
    show (k.val / 32) * 32 + k.val % 32 = k.val
    omega
  · intro i hi
    rw [Finset.mem_filter] at hi
    have e0 : i 0 = j 0 := (hd i).mp hi.2
    have h2 : (i 2).val < 32 := (i 2).isLt
    congr 1
    funext a
    match a with
    | ⟨0, _⟩ => exact e0
    | ⟨1, _⟩ => apply Fin.ext; show (i 1).val = ((i 1).val * 32 + (i 2).val) / 32; omega
    | ⟨2, _⟩ => apply Fin.ext; show (i 2).val = ((i 1).val * 32 + (i 2).val) % 32; omega

end Cert.MaskedSqErr

end
-- ==== Proof.RefValue.lean ====
/-
  The reference's result is `meanOver (rowLoss P T)`.

  Its last two lines are the mean as `meanOver` spells it, applied to the per-sample sums. The per-sample sum at `j` is
  the host's reduction over the two trailing axes: zero plus the sum, over the entries of sample `j 0`, of
  (P - T)·(P - T)·mask, each factor read at the entry; by `sum_fiber_eq_sum_flat` that is the sum over the flattened
  positions, `rowLoss`.
-/
import proofs.«178598_j46995532153320_1_alg».proof.Proof.Gen.ReferenceIdeal.Read
import proofs.«178598_j46995532153320_1_alg».proof.Proof.Spec

noncomputable section

open scoped BigOperators
open Idealize.ShloMosaic Idealize.ShloMosaic.ValueIdx

namespace Cert.ReferenceIdeal.RefValue

open Cert.ReferenceIdeal Cert.ReferenceIdeal.Gen Cert.ReferenceIdeal.Read Cert.MaskedSqErr

/-- The masked squared difference at one entry is that entry's share. -/
theorem masked_sq_apply (P T : FVec Ideal S4096x200x32 .f32) (i : S4096x200x32.Idx) :
    val_main_v5 (F := Ideal) P T i = share (P i) (T i) := by
  rw [val_main_v5_apply, val_main_v4_apply, val_main_v3_apply, val_main_v2_apply, val_main_v1_apply, val_main_v0_apply,
    val_main_cst_apply]
  rfl

/-- The per-sample sums of the reference are `rowLoss`. -/
theorem perSample_eq (P T : FVec Ideal S4096x200x32 .f32) :
    val_main_v6 (F := Ideal) P T = rowLoss P T := by
  funext j
  unfold val_main_v6 rowLoss
  simp only [Host.reduceAdd, Ideal.hostReduceAdd_def]
  unfold Ideal.hostReduceAdd
  rw [val_main_cst_0_apply, Ideal.ofBits_def, Ideal.ofBits_zero_f32, zero_add,
    sum_fiber_eq_sum_flat reducesTo_S4096x200x32_S4096_d1_2 _ j]
  exact Finset.sum_congr rfl fun k _ => masked_sq_apply P T _

/-- The reference's result, as the run states it, is the mean of `rowLoss`. -/
theorem result_eq (P T : FVec Ideal S4096x200x32 .f32) :
    val_main_v8 (F := Ideal) P T = meanOver reducesTo_S4096_S_d0 h_S_ (rowLoss P T) := by
  unfold val_main_v8 val_main_v7 val_main_cst_1 val_main_cst_2 meanOver
  rw [perSample_eq]

end Cert.ReferenceIdeal.RefValue

end
-- ==== Proof.KernelValue.lean ====
/-
  The kernel's result is `meanOver (rowLoss P T)`.

  The two arguments are flattened to [4096, 6400] before the call; the call covers the 4096 samples by 16 blocks of 256
  rows, and at a block the body writes, for each of its rows, the sum along the row of (p - t)·(p - t)·mask. So the
  call's output array holds at sample `b` the sum over the flattened positions `k` of the share of entry
  (b, k / 32, k % 32): `rowLoss`. The lines after the call are the mean as `meanOver` spells it.
-/
import proofs.«178598_j46995532153320_1_alg».proof.Proof.Gen.KernelIdeal.Frame
import proofs.«178598_j46995532153320_1_alg».proof.Proof.Spec
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.KernelValue

open Cert.KernelIdeal Cert.KernelIdeal.Gen Cert.MaskedSqErr

variable (m : (ℓ : Loc nD τ sig) → Buf (Elt Ideal) ℓ) (ρ : Dev nD → PrngReg)

/-! ## The body's arithmetic at one row of a block -/

/-- A sum along the rows of a [256, 6400] block, read at row `y 0`: the 6400 entries of that row added up. -/
theorem laneSum_apply (src : FVec Ideal S256x6400 .f32) (h : S256x6400.Reduces [1] S256) (hφ : FKind.Formats .f32)
    (hacc : (0x00000000#32 : BitVec 32) = 0x00000000#32) (y : S256.Idx) :
    multiReduction .add [1] S256 src 0x00000000#32 h hφ hacc y = ∑ k : Fin 6400, src (ix2 (y 0) k) := by
  refine (Ideal.multiReduction_add_single src 0x00000000#32 h hφ hacc y).trans ?_
  refine Finset.sum_congr rfl fun k _ => congrArg src ?_
  funext a
  match a with
  | ⟨0, _⟩ => rfl
  | ⟨1, _⟩ => rfl

/-- What the body stores at row `y 0` of its output block: the shares of that row's 6400 pairs of entries, added up. -/
theorem pay_apply (x0 x1 : FVec Ideal S256x6400 .f32) (y : S256.Idx) :
    k0_pay1 (F := Ideal) x0 x1 y = ∑ k : Fin 6400, share (x0 (ix2 (y 0) k)) (x1 (ix2 (y 0) k)) := by
  unfold k0_pay1
  refine (laneSum_apply _ _ _ _ y).trans ?_
  refine Finset.sum_congr rfl fun k _ => ?_
  rw [shapeCast_self, shapeCast_self]
  show (x0 _ - x1 _) * (x0 _ - x1 _) * ((((Ideal.cmp .one (x1 _) (Ideal.ofBits .f32 0x00000000#32)).setWidth 32).toInt : ℝ) : EReal) = _
  rw [mask_word]
  rfl

/-! ## The blocks and the flattened arrays -/

/-- The two flattened arrays as the call finds them, and their blocks at a grid point. -/
abbrev parr (c : Dev nD) : FVec Ideal S4096x6400 .f32 := V m c main_v0
abbrev tarr (c : Dev nD) : FVec Ideal S4096x6400 .f32 := V m c main_v1
abbrev pblk (c : Dev nD) (t : Fin cfg0.N) : FVec Ideal S256x6400 .f32 := iblk m c 0 t
abbrev tblk (c : Dev nD) (t : Fin cfg0.N) : FVec Ideal S256x6400 .f32 := iblk m c 1 t

/-- At grid point `t` every window sits at block `t` of the sample axis (and at block 0 of the flattened axis). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 ∧ win0_2.index t (0 : Fin 1) = t.val :=
  (by decide +kernel : ∀ t : Fin grid0.N, _)

/-- Row `x 0` of the prediction's block at point `t` is row `256 t + x 0` of the flattened prediction. -/
theorem pblk_apply (c : Dev nD) (t : Fin cfg0.N) (x : S256x6400.Idx) (k : S4096x6400.Idx)
    (hk0 : (k 0).val = 256 * t.val + (x 0).val) (hk1 : (k 1).val = (x 1).val) :
    pblk m c t x = parr m c k := by
  obtain ⟨e0, e1, -, -, -⟩ := idx_facts t
  show iblk m c 0 t x = V m c main_v0 k
  unfold iblk
  rw [View.read_apply]
  show V m c main_v0 _ = V m c main_v0 _
  congr 1
  funext a
  apply Fin.ext
  match a with
  | ⟨0, _⟩ => show win0_0.index t 0 * 256 + 1 * (x 0).val = (k 0).val; rw [e0, hk0]; omega
  | ⟨1, _⟩ => show win0_0.index t 1 * 6400 + 1 * (x 1).val = (k 1).val; rw [e1, hk1]; omega

/-- The same for the target's block. -/
theorem tblk_apply (c : Dev nD) (t : Fin cfg0.N) (x : S256x6400.Idx) (k : S4096x6400.Idx)
    (hk0 : (k 0).val = 256 * t.val + (x 0).val) (hk1 : (k 1).val = (x 1).val) :
    tblk m c t x = tarr m c k := by
  obtain ⟨-, -, e0, e1, -⟩ := idx_facts t
  show iblk m c 1 t x = V m c main_v1 k
  unfold iblk
  rw [View.read_apply]
  show V m c main_v1 _ = V m c main_v1 _
  congr 1
  funext a
  apply Fin.ext
  match a with
  | ⟨0, _⟩ => show win0_1.index t 0 * 256 + 1 * (x 0).val = (k 0).val; rw [e0, hk0]; omega
  | ⟨1, _⟩ => show win0_1.index t 1 * 6400 + 1 * (x 1).val = (k 1).val; rw [e1, hk1]; omega

/-! ## The call's output array -/

theorem hz2 : (![0, 0] : Fin 2 → Nat) = fun _ => 0 := funext fun a => by fin_cases a <;> rfl
theorem hz1 : (![0] : Fin 1 → Nat) = fun _ => 0 := funext fun a => by fin_cases a <;> rfl

/-- The per-sample sums over the flattened arrays: at sample `i 0`, the shares along row `i 0` added up. -/
def flatLoss (A B : FVec Ideal S4096x6400 .f32) : FVec Ideal S4096 .f32 :=
  fun i => ∑ k : Fin 6400, share (A (ix2 (i 0) k)) (B (ix2 (i 0) k))

/-- What grid point `t` writes back is block `t` of `flatLoss` of the flattened arrays. -/
theorem flushed_eq (c : Dev nD) (t : Fin cfg0.N) :
    (dats m 0 c).flushed 2 t = ((cfg0.win 2).blk t).view.read (Elt Ideal) (flatLoss (parr m c) (tarr m c)) := by
  show (cfg0.win 2).cut (grid0.coords t) ((dats m 0 c).after 2 t) = _
  rw [after0_2]
  unfold out0_2
  rw [View.canon_unit_zero hz1]
  simp only [View.ld_unit_zero (S := S256x6400) hz2]
  obtain ⟨-, -, -, -, e2⟩ := idx_facts t
  funext y
  show k0_pay1 (F := Ideal) (pblk m c t) (tblk m c t) y = flatLoss (parr m c) (tarr m c) (((cfg0.win 2).blk t).view.emb y)
  refine (pay_apply (pblk m c t) (tblk m c t) y).trans ?_
  unfold flatLoss
  refine Finset.sum_congr rfl fun k _ => ?_
  have hrow : ((((cfg0.win 2).blk t).view.emb y) 0).val = 256 * t.val + (y 0).val := by
    show win0_2.index t 0 * 256 + 1 * (y 0).val = _
    rw [e2]; omega
  rw [pblk_apply m c t (ix2 (y 0) k) (ix2 ((((cfg0.win 2).blk t).view.emb y) 0) k) hrow rfl,
    tblk_apply m c t (ix2 (y 0) k) (ix2 ((((cfg0.win 2).blk t).view.emb y) 0) k) hrow rfl]

/-- A sample is in point `t`'s output block iff it is one of the 256 samples from `256 t` on. -/
theorem mem_blk (t : Fin cfg0.N) (i : S4096.Idx) :
    i ∈ ((cfg0.win 2).blk t).view.set ↔ ∀ a : Fin 1, win0_2.index t a * S256.size a ≤ (i a).val ∧ (i a).val < win0_2.index t a * S256.size a + S256.size a := by
  show i ∈ ((View.whole main_v2).slice (win0_2.rect t)).set ↔ _
  rw [View.set_slice_whole, Rect.mem_set_unit]
  exact Iff.rfl

/-- Every sample is in the output block of the point `i 0 / 256`. -/
theorem cover (i : S4096.Idx) : ∃ t : Fin cfg0.N, (cfg0.win 2).flush t = true ∧ i ∈ ((cfg0.win 2).blk t).view.set := by
  have hi : (i 0).val < 4096 := (i 0).isLt
  refine ⟨⟨(i 0).val / 256, by rw [show cfg0.N = 16 from N_0]; omega⟩, flush0_2 _, ?_⟩
  rw [mem_blk]
  intro a
  obtain ⟨-, -, -, -, e2⟩ := idx_facts ⟨(i 0).val / 256, by rw [show cfg0.N = 16 from N_0]; omega⟩
  match a with
  | ⟨0, _⟩ =>
    show win0_2.index _ 0 * 256 ≤ (i 0).val ∧ (i 0).val < win0_2.index _ 0 * 256 + 256
    rw [e2]
    show (i 0).val / 256 * 256 ≤ (i 0).val ∧ (i 0).val < (i 0).val / 256 * 256 + 256
    omega

/-- So the call's output array ends holding `flatLoss` of the flattened arrays. -/
theorem final (c : Dev nD) : (dats m 0 c).arrAt 2 cfg0.N = flatLoss (parr m c) (tarr m c) :=
  (dats m 0 c).arrAt_eq_of_cover 2 (flatLoss (parr m c) (tarr m c)) (fun t _ => flushed_eq m c t) cover

/-! ## The lines around the call -/

/-- The first line before the call flattens the prediction, the second the target. -/
theorem parr_eq (c : Dev nD) : parr m c = shapeCast S4096x6400 (m ((c : Thread nD τ).loc main_arg0) : FVec Ideal S4096x200x32 .f32) shapeCasts_S4096x200x32_S4096x6400 := by
  show StableHlo.after hostOps0 (fun b => m (c, b)) (Proc.devRef .tc main_v0) = _
  after_results
  rfl
theorem tarr_eq (c : Dev nD) : tarr m c = shapeCast S4096x6400 (m ((c : Thread nD τ).loc main_arg1) : FVec Ideal S4096x200x32 .f32) shapeCasts_S4096x200x32_S4096x6400 := by
  show StableHlo.after hostOps0 (fun b => m (c, b)) (Proc.devRef .tc main_v1) = _
  after_results
  rfl

/-- Entry (b, k) of a flattened array is entry (b, k / 32, k % 32) of the array: both sit at row-major position
    6400 b + k. -/
theorem flat_apply (A : FVec Ideal S4096x200x32 .f32) (b : Fin 4096) (k : Fin 6400) :
    shapeCast S4096x6400 A shapeCasts_S4096x200x32_S4096x6400 (ix2 b k) = A (at3 b k) := by
  refine shapeCast_apply A _ (ix2 b k) (at3 b k) ?_
  rw [Shape.rowMajor_val_three, Shape.rowMajor_val_two]
  show (b.val * 200 + k.val / 32) * 32 + k.val % 32 = b.val * 6400 + k.val
  omega

/-- So the per-sample sums over the flattened arrays are `rowLoss` of the arguments. -/
theorem flatLoss_eq (c : Dev nD) :
    flatLoss (parr m c) (tarr m c) = rowLoss (m ((c : Thread nD τ).loc main_arg0)) (m ((c : Thread nD τ).loc main_arg1)) := by
  funext i
  unfold flatLoss rowLoss
  refine Finset.sum_congr rfl fun k _ => ?_
  rw [parr_eq, tarr_eq]
  exact congrArg₂ share (flat_apply _ (i 0) k) (flat_apply _ (i 0) k)

/-- The lines after the call take the mean of the call's output array. -/
theorem tail_eq (c : Dev nD) :
    (Pipeline.afterTail₀ cfgs (dats m) 0 (V0 m) [hostOps1] c main_v4 : FVec Ideal S_ .f32)
      = meanOver reducesTo_S4096_S_d0 h_S_ ((dats m 0 c).arrAt 2 cfg0.N) := by
  unfold Pipeline.afterTail₀
  show StableHlo.after hostOps1 _ (Proc.devRef .tc main_v4) = _
  after_results
  exact congrArg (meanOver reducesTo_S4096_S_d0 h_S_) (Pipeline.withArrays_arr spec0 launch0.win.arr_inj c _ _ 2)

/-! ## The run, read -/

/-- Every weakly fair execution of the kernel's program ends with the result at the mean of `rowLoss` of the
    arguments, and the arguments as they were. -/
theorem run : θ_run defs (onTc (τ := τ) (main (F := Ideal))) ⟨m, fun _ => 0, ρ⟩ fun r => ∀ c : Dev nD,
      r.2.mem ((c : Thread nD τ).loc main_v4)
        = meanOver reducesTo_S4096_S_d0 h_S_ (rowLoss (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v4 (Pipeline.mem_restRefs_of main_v4 (by decide) (by decide))).trans
        ((tail_eq m c).trans (by rw [final, flatLoss_eq])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KernelValue

end
-- ==== Proof.lean ====
/-
  The certificate's claims for the masked squared-error loss.

  Both programs compute, from a prediction P and a target T of shape [4096, 200, 32], the mean over the 4096 samples of
  the per-sample sums of (p - t)² · [t ≠ 0] (`Cert.MaskedSqErr.meanOver` of `rowLoss`, Proof/Spec.lean). The kernel
  flattens the two trailing axes and sums each row of 6400 entries inside the call; the reference sums over the two
  trailing axes at once. The same entries are added either way, and addition on the extended reals is commutative and
  associative, so the two per-sample sums agree entry set by entry set; nothing is cancelled or distributed, and the
  finiteness of the inputs is never used. At the extended reals the two comparisons ("ordered and not equal", "not
  equal") are one, and the one-bit mask widened to 32 bits and read signed is the bit read unsigned.

  The frames of the kernel's two programs are the generated ones; the reference's frame is its run with the result
  dropped; the ideal pass rewrote nothing, so the idealization claim is `True`.
-/
import proofs.«178598_j46995532153320_1_alg».proof.Defs
import proofs.«178598_j46995532153320_1_alg».proof.Proof.Gen.Kernel
import proofs.«178598_j46995532153320_1_alg».proof.Proof.Gen.Kernel.Skeleton
import proofs.«178598_j46995532153320_1_alg».proof.Proof.Gen.Kernel.Launch
import proofs.«178598_j46995532153320_1_alg».proof.Proof.Gen.Kernel.Points
import proofs.«178598_j46995532153320_1_alg».proof.Proof.Gen.Kernel.Frame
import proofs.«178598_j46995532153320_1_alg».proof.Proof.Gen.KernelIdeal
import proofs.«178598_j46995532153320_1_alg».proof.Proof.Gen.KernelIdeal.Skeleton
import proofs.«178598_j46995532153320_1_alg».proof.Proof.Gen.KernelIdeal.Launch
import proofs.«178598_j46995532153320_1_alg».proof.Proof.Gen.KernelIdeal.Points
import proofs.«178598_j46995532153320_1_alg».proof.Proof.Gen.KernelIdeal.Frame
import proofs.«178598_j46995532153320_1_alg».proof.Proof.Gen.ReferenceIdeal
import proofs.«178598_j46995532153320_1_alg».proof.Proof.Gen.ReferenceIdeal.Run
import proofs.«178598_j46995532153320_1_alg».proof.Proof.Gen.ReferenceIdeal.Read
import proofs.«178598_j46995532153320_1_alg».proof.Proof.Gen.Pre_finite_inputs
import proofs.«178598_j46995532153320_1_alg».proof.Proof.Spec
import proofs.«178598_j46995532153320_1_alg».proof.Proof.RefValue
import proofs.«178598_j46995532153320_1_alg».proof.Proof.KernelValue
import Idealize.ShloMosaic.Adequacy
import Idealize.ShloMosaic.Init

noncomputable section

namespace Cert.Proof

open Idealize.ShloMosaic Idealize.SL.Sem Cert.MaskedSqErr

theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- From memories that agree on the two arguments, both programs end with the mean of `rowLoss` of those arguments. -/
theorem algebraic : Cert.algebraic_KernelIdeal_ReferenceIdeal := by
  intro m ρ m' ρ' _ hagree
  refine ⟨fun c => meanOver Cert.KernelIdeal.Facts₀.reducesTo_S4096_S_d0 Cert.KernelIdeal.Facts₀.h_S_
      (rowLoss (m ((c.tc : Thread Cert.KernelIdeal.nD Cert.KernelIdeal.τ).loc Cert.KernelIdeal.main_arg0))
        (m ((c.tc : Thread Cert.KernelIdeal.nD Cert.KernelIdeal.τ).loc Cert.KernelIdeal.main_arg1))),
    fun c => meanOver Cert.KernelIdeal.Facts₀.reducesTo_S4096_S_d0 Cert.KernelIdeal.Facts₀.h_S_
      (rowLoss (m ((c.tc : Thread Cert.KernelIdeal.nD Cert.KernelIdeal.τ).loc Cert.KernelIdeal.main_arg0))
        (m ((c.tc : Thread Cert.KernelIdeal.nD Cert.KernelIdeal.τ).loc Cert.KernelIdeal.main_arg1))), ?_, ?_⟩
  · exact (θ_run Cert.KernelIdeal.defs _ _).mono (fun _ h c => ⟨(h c).1, (h c).1, (h c).2.1, (h c).2.2⟩)
      (Cert.KernelIdeal.KernelValue.run m ρ)
  · refine (θ_run Cert.ReferenceIdeal.defs _ _).mono (fun _ h c => ?_) (Cert.ReferenceIdeal.Value.run (F := Ideal) m' ρ')
    have e := (h c).1
    rw [Cert.ReferenceIdeal.Read.val_main_v8_eq, Cert.ReferenceIdeal.RefValue.result_eq, (hagree c).1, (hagree c).2] at e
    exact ⟨e, e, (h c).2.2.1, (h c).2.2.2⟩

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
